-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 80
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S1700000x1, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v42) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000, .i32⟩
  | .hbm, ⟨67, _⟩ => ⟨S1700000, .i32⟩
  | .hbm, ⟨68, _⟩ => ⟨S1700000, .i32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x128, .f32⟩
  | .hbm, ⟨111, _⟩ => ⟨S1700000x1, .f32⟩
  | .hbm, ⟨112, _⟩ => ⟨S1700000x128, .f32⟩
  | .hbm, ⟨113, _⟩ => ⟨S1700000x128, .f32⟩
  | .hbm, ⟨114, _⟩ => ⟨S_, .f32⟩
  | .hbm, ⟨115, _⟩ => ⟨S100000x128, .f32⟩
  | .hbm, ⟨116, _⟩ => ⟨S1700000x1, .i32⟩
  | .hbm, ⟨117, _⟩ => ⟨S100000x128, .f32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefProp.lean ====
/-
  The second hop's propagation step of the reference, as ONE function of the node features it propagates and of the
  edge list: gather the features at the (wrapped) source indices, scale each gathered row by its edge's normalisation
  weight, and scatter-add the rows at the destination indices into a zero matrix. The indices, the weights and the zero
  matrix are the reference's own stages (they depend on the edge list only); the features are a parameter, because the
  kernel's program applies the very same operations to ITS first layer's output. Nothing here is opened: the two
  programs' propagation steps are compared as this one function applied to equal features.
-/
import proofs.«172488_j49134425867022_1_alg».proof.Proof.RefReadP

noncomputable section

namespace Cert.ReferenceIdeal.Hop2

open Cert.ReferenceIdeal Cert.ReferenceIdeal.Gen Cert.ReferenceIdeal.ReadP Idealize.ShloMosaic Idealize.ShloMosaic.TcCoe

variable {F : FTy → Type} [FloatOps F]

/-- Gather at the sources, scale by the edge weights, scatter-add at the destinations. -/
def prop2 (h : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1700000x1_S1700000x128_1_0_0_1 (val_main_v83 (F := F)) (val_main_v84 (F := F) x1)
    (mulf (Host.gather gather_S100000x128_S1700000x1_S1700000x128_1_0_n_n_0_1_1128 h (val_main_v78 (F := F) x1)) (val_main_v81 (F := F) x1))

/-- The reference's aggregated features of the second hop are that function of its first layer's output. -/
theorem v85_eq (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F)) :
    val_main_v85 (F := F) x0 x1 x2 x3 = prop2 (val_main_v46 (F := F) x0 x1 x2 x3) x1 := rfl

end Cert.ReferenceIdeal.Hop2

end
-- ==== Proof.HostChain.lean ====
/-
  The host side of the kernel's program, read at the buffers the two pallas_calls take, in the reference's own words.

  Before the first call the kernel's program computes, from the edge list alone, the source and destination index
  vectors (edge endpoints followed by one self loop per node), the node degrees, their inverse square roots and the
  per-edge normalisation weights, and from these and the node features the first hop's aggregated features. These are,
  operation for operation, the reference's own first stages, so each buffer is the reference's stage function of the
  same arguments. Between the two calls the kernel's program propagates the first call's output with the SAME index
  vectors and weights (it keeps them; the reference computes them again, to the same terms): that is the reference's
  second-hop propagation applied to whatever the first call left. The weight matrices and bias vectors are never written.
  All of this is by reading the operations back, one after the other; no arithmetic is opened.
-/
import proofs.«172488_j49134425867022_1_alg».proof.Proof.Gen.KernelIdeal.Frame
import proofs.«172488_j49134425867022_1_alg».proof.Proof.RefProp
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- Reads a buffer at the first call's entry back through the three stretches of host operations before it. -/
macro "read_at_first_entry" : tactic => `(tactic| (
  simp only [hostOps0, hostOps0_1, hostOps0_2]
  after_results_simp
  try rfl))

/-- The source indices (edge sources, then every node once for its self loop) at the first call's entry. -/
theorem src_eq (c : Dev nD) :
    W3 m ρ c (Proc.devRef .tc main_v5) = Cert.ReferenceIdeal.ReadP.val_main_v48 (F := F) (m ((c : Thread nD τ).loc main_arg1)) := by
  show StableHlo.after hostOps0_2 (StableHlo.after hostOps0_1 (StableHlo.after hostOps0 (W0 m ρ c))) (Proc.devRef .tc main_v5) = _
  read_at_first_entry

/-- The destination indices (edge targets, then every node once) at the first call's entry. -/
theorem dst_eq (c : Dev nD) :
    W3 m ρ c (Proc.devRef .tc main_v6) = Cert.ReferenceIdeal.ReadP.val_main_v49 (F := F) (m ((c : Thread nD τ).loc main_arg1)) := by
  show StableHlo.after hostOps0_2 (StableHlo.after hostOps0_1 (StableHlo.after hostOps0 (W0 m ρ c))) (Proc.devRef .tc main_v6) = _
  read_at_first_entry

/-- The per-edge weights 1/sqrt(deg source) · 1/sqrt(deg target) at the first call's entry. -/
theorem norm_eq (c : Dev nD) :
    W3 m ρ c (Proc.devRef .tc main_v29) = Cert.ReferenceIdeal.ReadP.val_main_v72 (F := F) (m ((c : Thread nD τ).loc main_arg1)) := by
  show StableHlo.after hostOps0_2 (StableHlo.after hostOps0_1 (StableHlo.after hostOps0 (W0 m ρ c))) (Proc.devRef .tc main_v29) = _
  read_at_first_entry

/-- The first hop's aggregated features: what the first call takes as its row operand. -/
theorem agg1_eq (c : Dev nD) :
    W3 m ρ c (Proc.devRef .tc main_v42)
      = Cert.ReferenceIdeal.ReadP.val_main_v42 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v42) = _
  read_at_first_entry

/-- The first layer's weights and bias at the first call's entry are the launch contents. -/
theorem w1_eq (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  read_at_first_entry
theorem b1_eq (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  read_at_first_entry
theorem w2_first (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  read_at_first_entry
theorem b2_first (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  read_at_first_entry

/-- The second hop's aggregated features, what the second call takes as its row operand: the reference's second-hop
    propagation of whatever the first call left in its output array. -/
theorem agg2_eq (c : Dev nD) :
    W5 m ρ c (Proc.devRef .tc main_v56)
      = Cert.ReferenceIdeal.Hop2.prop2 (F := F) (W4 m ρ c (Proc.devRef .tc main_v43)) (m ((c : Thread nD τ).loc main_arg1)) := by
  show StableHlo.after hostOps1 (W4 m ρ c) (Proc.devRef .tc main_v56) = _
  simp only [hostOps1]
  after_results_simp
  rw [W4_of_ne m ρ c main_v5 (by decide), W4_of_ne m ρ c main_v6 (by decide), W4_of_ne m ρ c main_v29 (by decide),
    src_eq, dst_eq, norm_eq]
  rfl

/-- The second layer's weights and bias at the second call's entry are the launch contents. -/
theorem w2_eq (c : Dev nD) : W5 m ρ c (Proc.devRef .tc main_arg4) = m ((c : Thread nD τ).loc main_arg4) := by
  show StableHlo.after hostOps1 (W4 m ρ c) (Proc.devRef .tc main_arg4) = _
  simp only [hostOps1]
  after_results_simp
  rw [W4_of_ne m ρ c main_arg4 (by decide), w2_first]
theorem b2_eq (c : Dev nD) : W5 m ρ c (Proc.devRef .tc main_arg5) = m ((c : Thread nD τ).loc main_arg5) := by
  show StableHlo.after hostOps1 (W4 m ρ c) (Proc.devRef .tc main_arg5) = _
  simp only [hostOps1]
  after_results_simp
  rw [W4_of_ne m ρ c main_arg5 (by decide), b2_first]

end Cert.KernelIdeal.HostChain

end
-- ==== Proof.LinearBody0.lean ====
/-
  The kernel body of the first pallas_call, as arithmetic on extended reals. The body loads a block of 5000 rows of the
  aggregated features, the whole weight matrix and the whole bias vector, and stores

      block · W + bias          (one matrix product into a zero accumulator, then the bias row added to every row).

  At the ideal instance the casts to bf16 are the identity, the product into a zero accumulator is the plain sum over the
  128 contracted coordinates, and the bias row read at (p, q) is the bias at q. So the stored block is, entry by entry,

      out (p, q) = Σ_k block (p, k) · W (k, q) + bias q.

  Only the commutative-monoid structure of the extended reals is used (a sum re-indexed along a bijection of its index
  set); no entry has to be finite.
-/
import proofs.«172488_j49134425867022_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.LinearBody0

open Cert.KernelIdeal Cert.KernelIdeal.Gen Idealize.ShloMosaic Idealize.ShloMosaic.ValueIdx

/-- The shape of the block the body stores: 5000 rows, one column per output feature. -/
abbrev OutS : Shape := S5000x128

/-- Axis 0 of the left operand's index is the output row. -/
theorem lhs_0 (i : OutS.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left operand's index is the contracted coordinate. -/
theorem lhs_1 (i : OutS.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right operand's index is the contracted coordinate. -/
theorem rhs_0 (i : OutS.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right operand's index is the output column. -/
theorem rhs_1 (i : OutS.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, entry (p, q): the sum over the 128 contracted coordinates of
    row p of the left operand against column q of the right one. -/
theorem prod_apply (x : FVec Ideal S5000x128 .bf16) (w : FVec Ideal S128x128 .bf16) (p : Fin 5000) (q : Fin 128) :
    matmul dot_S5000x128_S128x128_S5000x128_1_0_0_1_n_n none x w (constant OutS .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias vector, made a one-row matrix and spread over the 5000 rows, read at (p, q): its entry q. -/
theorem bias_apply (b : Vec Ideal S128 .f32) (h1 : S128.ShapeCasts S1x128) (h2 : S1x128.ShapeCasts S1x128) (h3 : S1x128.Broadcasts OutS)
    (p : Fin 5000) (q : Fin 128) :
    broadcastTo OutS (shapeCast S1x128 (shapeCast S1x128 b h1) h2) h3 (ix2 p q) = b (ix1 q) := by
  rw [shapeCast_self]
  refine (broadcastTo_apply _ h3 (ix2 p q) (ix2 (0 : Fin 1) q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  · exact shapeCast_apply b h1 (ix2 (0 : Fin 1) q) (ix1 q) (by
      rw [Shape.rowMajor_val_two, Shape.rowMajor_val_one]
      show q.val = 0 * 128 + q.val
      omega)

/-- THE BODY'S STORED VALUE at entry (p, q) of the block: the input block's row p against column q of the weights,
    plus the bias at q. The two format changes and the identity reshape are the identity on extended reals. -/
theorem pay_apply (x0 : Vec Ideal S5000x128 .f32) (x1 : Vec Ideal S128x128 .f32) (x2 : Vec Ideal S128 .f32) (p : Fin 5000) (q : Fin 128) :
    k0_pay1 x0 x1 x2 (ix2 p q) = (∑ k : Fin 128, x0 (ix2 p k) * x1 (ix2 k q)) + x2 (ix1 q) := by
  unfold k0_pay1
  refine (addf_apply _ _ _).trans ?_
  refine congrArg₂ (· + ·) ?_ ?_
  · refine (prod_apply _ _ p q).trans ?_
    refine Finset.sum_congr rfl fun k _ => ?_
    exact congrArg₂ (· * ·) (congrFun (shapeCast_self x0 _) (ix2 p k)) rfl
  · exact bias_apply x2 _ _ _ p q

end Cert.KernelIdeal.LinearBody0

end
-- ==== Proof.Region0Value.lean ====
/-
  What the first pallas_call leaves in its output array, for ANY contents V of the buffers at its entry.

  The call walks 20 grid points; point t fetches rows 5000·t … 5000·t + 4999 of the aggregated features (all 128
  columns), the whole weight matrix and the whole bias, and writes back rows 5000·t … 5000·t + 4999 of the output. The
  body's stored block is block · W + bias, so row 5000·t + p of the output is the linear layer applied to row
  5000·t + p of the input: the written block is the restriction of ONE whole-array function, the linear layer

      lin agg W b (r, q) = Σ_k agg (r, k) · W (k, q) + b q,

  to the block's rows. The 20 blocks tile the 100000 rows (row r lies in block r / 5000), so after the call the whole
  output array is lin of the three input arrays as the call found them.
-/
import proofs.«172488_j49134425867022_1_alg».proof.Proof.Gen.KernelIdeal.Frame
import proofs.«172488_j49134425867022_1_alg».proof.Proof.LinearBody0
import Idealize.ShloMosaic.Lib.ValueIdx
import Idealize.ShloMosaic.Lib.Pipeline.Value

set_option maxRecDepth 16384

noncomputable section

namespace Cert.KernelIdeal.Region0Value

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The linear layer on whole arrays: row r of the features against column q of the weights, plus the bias at q. -/
def lin (agg : S100000x128.Idx → EReal) (W : S128x128.Idx → EReal) (b : S128.Idx → EReal) : S100000x128.Idx → EReal :=
  fun i => (∑ k : Fin 128, agg (ix2 (i 0) k) * W (ix2 k (i 1))) + b (ix1 (i 1))

theorem lin_apply (agg : S100000x128.Idx → EReal) (W : S128x128.Idx → EReal) (b : S128.Idx → EReal) (r : Fin 100000) (q : Fin 128) :
    lin agg W b (ix2 r q) = (∑ k : Fin 128, agg (ix2 r k) * W (ix2 k q)) + b (ix1 q) := rfl

variable (V : (c : Dev nD) → (b : Ref sig .tc) → Buf (Elt Ideal) ((c : Thread nD τ).loc b))

/-- The three arrays the call reads, as it finds them, at their literal types. -/
abbrev aggArr (c : Dev nD) : S100000x128.Idx → EReal := V c main_v42
abbrev wArr (c : Dev nD) : S128x128.Idx → EReal := V c main_arg2
abbrev bArr (c : Dev nD) : S128.Idx → EReal := V c main_arg3

/-- The three input blocks at point t, at their literal types. -/
abbrev xblk (c : Dev nD) (t : Fin cfg0.N) : Vec Ideal S5000x128 .f32 := iblk0 V c 0 t
abbrev wblk (c : Dev nD) (t : Fin cfg0.N) : Vec Ideal S128x128 .f32 := iblk0 V c 1 t
abbrev bblk (c : Dev nD) (t : Fin cfg0.N) : Vec Ideal S128 .f32 := iblk0 V c 2 t

theorem hz : (![0, 0] : Fin 2 → Nat) = fun _ => 0 := funext fun a => by fin_cases a <;> rfl
theorem hz1 : (![0] : Fin 1 → Nat) = fun _ => 0 := funext fun a => by fin_cases a; rfl

/-- The printed index maps over the grid: the feature window and the output window sit at block row t, column
    block 0; the weights and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of block t is row 5000·t + p of the array. -/
def row (t : Fin cfg0.N) (p : Fin 5000) : Fin 100000 := ⟨t.val * 5000 + p.val, by have := t.isLt; have := p.isLt; show _ < 100000; have h : cfg0.N = 20 := rfl; omega⟩

/-- The feature block at point t, entry (p, k): the array at row 5000·t + p, column k. -/
theorem xblk_apply (c : Dev nD) (t : Fin cfg0.N) (p : Fin 5000) (k : Fin 128) :
    xblk V c t (ix2 p k) = aggArr V c (ix2 (row t p) k) := by
  obtain ⟨e0, e1, -, -, -, -, -⟩ := idx_facts t
  show V c main_v42 (((cfg0.win 0).blk t).view.emb (ix2 p k)) = V c main_v42 (ix2 (row t p) k)
  refine congrArg (V c main_v42) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block at any point is the whole weight matrix. -/
theorem wblk_apply (c : Dev nD) (t : Fin cfg0.N) (k : Fin 128) (q : Fin 128) :
    wblk V c t (ix2 k q) = wArr V c (ix2 k q) := by
  obtain ⟨-, -, e2, e3, -, -, -⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias block at any point is the whole bias vector. -/
theorem bblk_apply (c : Dev nD) (t : Fin cfg0.N) (q : Fin 128) :
    bblk V c t (ix1 q) = bArr V c (ix1 q) := by
  obtain ⟨-, -, -, -, e4, -, -⟩ := idx_facts t
  show V c main_arg3 (((cfg0.win 2).blk t).view.emb (ix1 q)) = V c main_arg3 (ix1 q)
  refine congrArg (V c main_arg3) (funext fun a => Fin.ext ?_)
  match a with
  | ⟨0, _⟩ => show win0_2.index t (0 : Fin 1) * 128 + 1 * q.val = q.val; omega

/-- Entry (p, q) of the output block at point t sits at row 5000·t + p, column q of the output array. -/
theorem oblk_emb (t : Fin cfg0.N) (p : Fin 5000) (q : Fin 128) :
    ((cfg0.win 3).blk t).view.emb (ix2 p q) = ix2 (row t p) q := by
  obtain ⟨-, -, -, -, -, e5, e6⟩ := idx_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- WHAT POINT t WRITES BACK is block t of the linear layer of the three arrays as the call finds them. -/
theorem flushed_eq (c : Dev nD) (t : Fin cfg0.N) :
    (dat0 V c).flushed 3 t = ((cfg0.win 3).blk t).view.read (Elt Ideal) (lin (aggArr V c) (wArr V c) (bArr V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  show k0_pay1 (xblk V c t) (wblk V c t) (bblk V c t) (ix2 p q) = lin (aggArr V c) (wArr V c) (bArr V c) (((cfg0.win 3).blk t).view.emb (ix2 p q))
  rw [oblk_emb t p q, lin_apply]
  refine (LinearBody0.pay_apply (xblk V c t) (wblk V c t) (bblk V c t) p q).trans ?_
  refine congrArg₂ (· + ·) (Finset.sum_congr rfl fun k _ => ?_) (bblk_apply V c t q)
  exact congrArg₂ (· * ·) (xblk_apply V c t p k) (wblk_apply V c t k q)

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v43).slice (win0_3.rect t)).set ↔ _
  rw [View.set_slice_whole, Rect.mem_set_unit]
  exact Iff.rfl

/-- The 20 blocks cover the output array: row r lies in block r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := rfl
  let t : Fin cfg0.N := ⟨(i 0).val / 5000, by omega⟩
  obtain ⟨-, -, -, -, -, e5, e6⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY AFTER THE CALL: the linear layer of the three arrays the call found. -/
theorem final (c : Dev nD) :
    (dat0 V c).arrAt 3 cfg0.N = lin (aggArr V c) (wArr V c) (bArr V c) :=
  (dat0 V c).arrAt_eq_of_cover 3 _ (fun t _ => flushed_eq V c t) cover

end Cert.KernelIdeal.Region0Value

end
-- ==== Proof.LinearBody1.lean ====
/-
  The kernel body of the second pallas_call, as arithmetic on extended reals. The body loads a block of 5000 rows of the
  aggregated features, the whole weight matrix and the whole bias vector, and stores

      block · W + bias          (one matrix product into a zero accumulator, then the bias row added to every row).

  At the ideal instance the casts to bf16 are the identity, the product into a zero accumulator is the plain sum over the
  128 contracted coordinates, and the bias row read at (p, q) is the bias at q. So the stored block is, entry by entry,

      out (p, q) = Σ_k block (p, k) · W (k, q) + bias q.

  Only the commutative-monoid structure of the extended reals is used (a sum re-indexed along a bijection of its index
  set); no entry has to be finite.
-/
import proofs.«172488_j49134425867022_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.LinearBody1

open Cert.KernelIdeal Cert.KernelIdeal.Gen Idealize.ShloMosaic Idealize.ShloMosaic.ValueIdx

/-- The shape of the block the body stores: 5000 rows, one column per output feature. -/
abbrev OutS : Shape := S5000x64

/-- Axis 0 of the left operand's index is the output row. -/
theorem lhs_0 (i : OutS.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Axis 1 of the left operand's index is the contracted coordinate. -/
theorem lhs_1 (i : OutS.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- Axis 0 of the right operand's index is the contracted coordinate. -/
theorem rhs_0 (i : OutS.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- Axis 1 of the right operand's index is the output column. -/
theorem rhs_1 (i : OutS.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into a zero accumulator, entry (p, q): the sum over the 128 contracted coordinates of
    row p of the left operand against column q of the right one. -/
theorem prod_apply (x : FVec Ideal S5000x128 .bf16) (w : FVec Ideal S128x64 .bf16) (p : Fin 5000) (q : Fin 64) :
    matmul dot_S5000x128_S128x64_S5000x64_1_0_0_1_n_n none x w (constant OutS .f32 0x00000000#32) (ix2 p q)
      = ∑ k : Fin 128, x (ix2 p k) * w (ix2 k q) := by
  refine (Ideal.matmul_constant_zero_apply dot_S5000x128_S128x64_S5000x64_1_0_0_1_n_n none x w (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias vector, made a one-row matrix and spread over the 5000 rows, read at (p, q): its entry q. -/
theorem bias_apply (b : Vec Ideal S64 .f32) (h1 : S64.ShapeCasts S1x64) (h2 : S1x64.ShapeCasts S1x64) (h3 : S1x64.Broadcasts OutS)
    (p : Fin 5000) (q : Fin 64) :
    broadcastTo OutS (shapeCast S1x64 (shapeCast S1x64 b h1) h2) h3 (ix2 p q) = b (ix1 q) := by
  rw [shapeCast_self]
  refine (broadcastTo_apply _ h3 (ix2 p q) (ix2 (0 : Fin 1) q) (fun a => ?_)).trans ?_
  · match a with
    | ⟨0, _⟩ => show 0 = if (1 : Nat) = 1 then 0 else p.val; rw [if_pos rfl]
    | ⟨1, _⟩ => show q.val = if (64 : Nat) = 1 then 0 else q.val; rw [if_neg (by decide)]
  · exact shapeCast_apply b h1 (ix2 (0 : Fin 1) q) (ix1 q) (by
      rw [Shape.rowMajor_val_two, Shape.rowMajor_val_one]
      show q.val = 0 * 64 + q.val
      omega)

/-- THE BODY'S STORED VALUE at entry (p, q) of the block: the input block's row p against column q of the weights,
    plus the bias at q. The two format changes and the identity reshape are the identity on extended reals. -/
theorem pay_apply (x0 : Vec Ideal S5000x128 .f32) (x1 : Vec Ideal S128x64 .f32) (x2 : Vec Ideal S64 .f32) (p : Fin 5000) (q : Fin 64) :
    k1_pay1 x0 x1 x2 (ix2 p q) = (∑ k : Fin 128, x0 (ix2 p k) * x1 (ix2 k q)) + x2 (ix1 q) := by
  unfold k1_pay1
  refine (addf_apply _ _ _).trans ?_
  refine congrArg₂ (· + ·) ?_ ?_
  · refine (prod_apply _ _ p q).trans ?_
    refine Finset.sum_congr rfl fun k _ => ?_
    exact congrArg₂ (· * ·) (congrFun (shapeCast_self x0 _) (ix2 p k)) rfl
  · exact bias_apply x2 _ _ _ p q

end Cert.KernelIdeal.LinearBody1

end
-- ==== Proof.Region1Value.lean ====
/-
  What the second pallas_call leaves in its output array, for ANY contents V of the buffers at its entry.

  The call walks 20 grid points; point t fetches rows 5000·t … 5000·t + 4999 of the aggregated features (all 128
  columns), the whole weight matrix and the whole bias, and writes back rows 5000·t … 5000·t + 4999 of the output. The
  body's stored block is block · W + bias, so row 5000·t + p of the output is the linear layer applied to row
  5000·t + p of the input: the written block is the restriction of ONE whole-array function, the linear layer

      lin agg W b (r, q) = Σ_k agg (r, k) · W (k, q) + b q,

  to the block's rows. The 20 blocks tile the 100000 rows (row r lies in block r / 5000), so after the call the whole
  output array is lin of the three input arrays as the call found them.
-/
import proofs.«172488_j49134425867022_1_alg».proof.Proof.Gen.KernelIdeal.Frame
import proofs.«172488_j49134425867022_1_alg».proof.Proof.LinearBody1
import Idealize.ShloMosaic.Lib.ValueIdx
import Idealize.ShloMosaic.Lib.Pipeline.Value

set_option maxRecDepth 16384

noncomputable section

namespace Cert.KernelIdeal.Region1Value

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The linear layer on whole arrays: row r of the features against column q of the weights, plus the bias at q. -/
def lin (agg : S100000x128.Idx → EReal) (W : S128x64.Idx → EReal) (b : S64.Idx → EReal) : S100000x64.Idx → EReal :=
  fun i => (∑ k : Fin 128, agg (ix2 (i 0) k) * W (ix2 k (i 1))) + b (ix1 (i 1))

theorem lin_apply (agg : S100000x128.Idx → EReal) (W : S128x64.Idx → EReal) (b : S64.Idx → EReal) (r : Fin 100000) (q : Fin 64) :
    lin agg W b (ix2 r q) = (∑ k : Fin 128, agg (ix2 r k) * W (ix2 k q)) + b (ix1 q) := rfl

variable (V : (c : Dev nD) → (b : Ref sig .tc) → Buf (Elt Ideal) ((c : Thread nD τ).loc b))

/-- The three arrays the call reads, as it finds them, at their literal types. -/
abbrev aggArr (c : Dev nD) : S100000x128.Idx → EReal := V c main_v56
abbrev wArr (c : Dev nD) : S128x64.Idx → EReal := V c main_arg4
abbrev bArr (c : Dev nD) : S64.Idx → EReal := V c main_arg5

/-- The three input blocks at point t, at their literal types. -/
abbrev xblk (c : Dev nD) (t : Fin cfg1.N) : Vec Ideal S5000x128 .f32 := iblk1 V c 0 t
abbrev wblk (c : Dev nD) (t : Fin cfg1.N) : Vec Ideal S128x64 .f32 := iblk1 V c 1 t
abbrev bblk (c : Dev nD) (t : Fin cfg1.N) : Vec Ideal S64 .f32 := iblk1 V c 2 t

theorem hz : (![0, 0] : Fin 2 → Nat) = fun _ => 0 := funext fun a => by fin_cases a <;> rfl
theorem hz1 : (![0] : Fin 1 → Nat) = fun _ => 0 := funext fun a => by fin_cases a; rfl

/-- The printed index maps over the grid: the feature window and the output window sit at block row t, column
    block 0; the weights and the bias at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row p of block t is row 5000·t + p of the array. -/
def row (t : Fin cfg1.N) (p : Fin 5000) : Fin 100000 := ⟨t.val * 5000 + p.val, by have := t.isLt; have := p.isLt; show _ < 100000; have h : cfg1.N = 20 := rfl; omega⟩

/-- The feature block at point t, entry (p, k): the array at row 5000·t + p, column k. -/
theorem xblk_apply (c : Dev nD) (t : Fin cfg1.N) (p : Fin 5000) (k : Fin 128) :
    xblk V c t (ix2 p k) = aggArr V c (ix2 (row t p) k) := by
  obtain ⟨e0, e1, -, -, -, -, -⟩ := idx_facts t
  show V c main_v56 (((cfg1.win 0).blk t).view.emb (ix2 p k)) = V c main_v56 (ix2 (row t p) k)
  refine congrArg (V c main_v56) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The weight block at any point is the whole weight matrix. -/
theorem wblk_apply (c : Dev nD) (t : Fin cfg1.N) (k : Fin 128) (q : Fin 64) :
    wblk V c t (ix2 k q) = wArr V c (ix2 k q) := by
  obtain ⟨-, -, e2, e3, -, -, -⟩ := idx_facts t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 128 + 1 * k.val = k.val; omega
  | ⟨1, _⟩ => show win1_1.index t (1 : Fin 2) * 64 + 1 * q.val = q.val; omega

/-- The bias block at any point is the whole bias vector. -/
theorem bblk_apply (c : Dev nD) (t : Fin cfg1.N) (q : Fin 64) :
    bblk V c t (ix1 q) = bArr V c (ix1 q) := by
  obtain ⟨-, -, -, -, e4, -, -⟩ := idx_facts t
  show V c main_arg5 (((cfg1.win 2).blk t).view.emb (ix1 q)) = V c main_arg5 (ix1 q)
  refine congrArg (V c main_arg5) (funext fun a => Fin.ext ?_)
  match a with
  | ⟨0, _⟩ => show win1_2.index t (0 : Fin 1) * 64 + 1 * q.val = q.val; omega

/-- Entry (p, q) of the output block at point t sits at row 5000·t + p, column q of the output array. -/
theorem oblk_emb (t : Fin cfg1.N) (p : Fin 5000) (q : Fin 64) :
    ((cfg1.win 3).blk t).view.emb (ix2 p q) = ix2 (row t p) q := by
  obtain ⟨-, -, -, -, -, e5, e6⟩ := idx_facts t
  refine funext fun a => Fin.ext ?_
  match a with
  | ⟨0, _⟩ => show win1_3.index t (0 : Fin 2) * 5000 + 1 * p.val = t.val * 5000 + p.val; omega
  | ⟨1, _⟩ => show win1_3.index t (1 : Fin 2) * 64 + 1 * q.val = q.val; omega

/-- WHAT POINT t WRITES BACK is block t of the linear layer of the three arrays as the call finds them. -/
theorem flushed_eq (c : Dev nD) (t : Fin cfg1.N) :
    (dat1 V c).flushed 3 t = ((cfg1.win 3).blk t).view.read (Elt Ideal) (lin (aggArr V c) (wArr V c) (bArr V c)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz, View.ld_unit_zero (S := S64) hz1]
  funext j
  obtain ⟨p, q, rfl⟩ : ∃ (p : Fin 5000) (q : Fin 64), j = ix2 p q := ⟨j 0, j 1, eq_ix2 j⟩
  show k1_pay1 (xblk V c t) (wblk V c t) (bblk V c t) (ix2 p q) = lin (aggArr V c) (wArr V c) (bArr V c) (((cfg1.win 3).blk t).view.emb (ix2 p q))
  rw [oblk_emb t p q, lin_apply]
  refine (LinearBody1.pay_apply (xblk V c t) (wblk V c t) (bblk V c t) p q).trans ?_
  refine congrArg₂ (· + ·) (Finset.sum_congr rfl fun k _ => ?_) (bblk_apply V c t q)
  exact congrArg₂ (· * ·) (xblk_apply V c t p k) (wblk_apply V c t k q)

/-- An index of the output array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v57).slice (win1_3.rect t)).set ↔ _
  rw [View.set_slice_whole, Rect.mem_set_unit]
  exact Iff.rfl

/-- The 20 blocks cover the output array: row r lies in block r / 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := rfl
  let t : Fin cfg1.N := ⟨(i 0).val / 5000, by omega⟩
  obtain ⟨-, -, -, -, -, e5, e6⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE OUTPUT ARRAY AFTER THE CALL: the linear layer of the three arrays the call found. -/
theorem final (c : Dev nD) :
    (dat1 V c).arrAt 3 cfg1.N = lin (aggArr V c) (wArr V c) (bArr V c) :=
  (dat1 V c).arrAt_eq_of_cover 3 _ (fun t _ => flushed_eq V c t) cover

end Cert.KernelIdeal.Region1Value

end
-- ==== Proof.LayerBridge.lean ====
/-
  The two linear layers, kernel against reference, on extended reals.

  The kernel's call leaves  lin agg W b (r, q) = Σ_k agg (r, k) · W (k, q) + b q  in its output array (one grid point per
  5000 rows). The reference computes the same layer as a whole-array contraction of the row operand with the weights,
  plus the bias spread over the rows; read at (r, q) that is the same sum over the 128 contracted coordinates plus the
  bias at q. The two are equal entry by entry: the same products, summed over the same index set, and the same bias
  entry. Nothing has to be finite.
-/
import proofs.«172488_j49134425867022_1_alg».proof.Proof.Region0Value
import proofs.«172488_j49134425867022_1_alg».proof.Proof.Region1Value
import proofs.«172488_j49134425867022_1_alg».proof.Proof.RefProp

noncomputable section

namespace Cert.Bridge

open Cert.ReferenceIdeal Cert.ReferenceIdeal.Gen Cert.ReferenceIdeal.ReadP Idealize.ShloMosaic Idealize.ShloMosaic.TcCoe Idealize.ShloMosaic.ValueIdx

/-- FIRST LAYER: the kernel's whole-array linear layer of the reference's first-hop aggregate is the reference's
    first layer (contraction with the weights, bias added). -/
theorem layer1_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    Cert.KernelIdeal.Region0Value.lin (val_main_v42 (F := Ideal) x0 x1) x2 x3 = val_main_v46 (F := Ideal) x0 x1 x2 x3 := by
  funext i
  rw [val_main_v46_apply, val_main_v43_apply, val_main_v45_apply, val_main_v44_apply]
  have el : ∀ k : Fin 128, lidx_main_v43 i k = ix2 (i 0) k := fun k => funext fun a => Fin.ext (by
    match a with
    | ⟨0, _⟩ => rfl
    | ⟨1, _⟩ => rfl)
  have er : ∀ k : Fin 128, ridx_main_v43 i k = ix2 k (i 1) := fun k => funext fun a => Fin.ext (by
    match a with
    | ⟨0, _⟩ => rfl
    | ⟨1, _⟩ => rfl)
  have eb : idx_main_v44 (idx_main_v45 i) = ix1 (i 1) := funext fun a => Fin.ext (by
    match a with
    | ⟨0, _⟩ => rfl)
  simp only [el, er, eb]
  rfl

/-- SECOND LAYER: the kernel's whole-array linear layer of the reference's second-hop aggregate is the reference's
    result. -/
theorem layer2_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    Cert.KernelIdeal.Region1Value.lin (val_main_v85 (F := Ideal) x0 x1 x2 x3) x4 x5 = val_main_v89 (F := Ideal) x0 x1 x2 x3 x4 x5 := by
  funext i
  rw [val_main_v89_apply, val_main_v86_apply, val_main_v88_apply, val_main_v87_apply]
  have el : ∀ k : Fin 128, lidx_main_v86 i k = ix2 (i 0) k := fun k => funext fun a => Fin.ext (by
    match a with
    | ⟨0, _⟩ => rfl
    | ⟨1, _⟩ => rfl)
  have er : ∀ k : Fin 128, ridx_main_v86 i k = ix2 k (i 1) := fun k => funext fun a => Fin.ext (by
    match a with
    | ⟨0, _⟩ => rfl
    | ⟨1, _⟩ => rfl)
  have eb : idx_main_v87 (idx_main_v88 i) = ix1 (i 1) := funext fun a => Fin.ext (by
    match a with
    | ⟨0, _⟩ => rfl)
  simp only [el, er, eb]
  rfl

end Cert.Bridge

end
-- ==== Proof.KernelValue.lean ====
/-
  The kernel's result array, as the reference's result function of the launch contents.

  Walking the kernel's program backwards from its result buffer: the second call leaves the linear layer of its three
  operands; its row operand is the second hop's propagation of the first call's output; the first call's output is the
  linear layer of the first hop's aggregate, the first weights and the first bias; and that aggregate is the reference's.
  Each linear layer is the reference's layer (same sum, same bias), and the propagation between them is one and the same
  function on both sides, so the kernel's result is, as an array of extended reals, the reference's result stage.
-/
import proofs.«172488_j49134425867022_1_alg».proof.Proof.HostChain
import proofs.«172488_j49134425867022_1_alg».proof.Proof.LayerBridge

set_option maxRecDepth 16384

noncomputable section

namespace Cert.KernelIdeal.KernelValue

open Cert.KernelIdeal Cert.KernelIdeal.Gen Idealize.ShloMosaic Idealize.ShloMosaic.TcCoe
open Idealize.SL.Sem

variable (m : (ℓ : Loc nD τ sig) → Buf (Elt Ideal) ℓ) (ρ : Dev nD → PrngReg)

/-- The first call's output array, at the second stretch's entry: the reference's first layer. -/
theorem first_layer (c : Dev nD) :
    W4 m ρ c (Proc.devRef .tc main_v43) = Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) := by
  refine (W4_arr m ρ c 3).trans ?_
  refine (Region0Value.final (V3 m ρ) c).trans ?_
  show Region0Value.lin (W3 m ρ c (Proc.devRef .tc main_v42)) (W3 m ρ c (Proc.devRef .tc main_arg2)) (W3 m ρ c (Proc.devRef .tc main_arg3)) = _
  rw [HostChain.agg1_eq, HostChain.w1_eq, HostChain.b1_eq]
  exact Cert.Bridge.layer1_eq _ _ _ _

/-- THE KERNEL'S RESULT: the last boundary's contents at the result buffer are the reference's result stage of the
    launch contents of the six arguments. -/
theorem result_eq (c : Dev nD) :
    W6 m ρ c (Proc.devRef .tc main_v57) = Cert.ReferenceIdeal.ReadP.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ?_
  refine (Region1Value.final (V5 m ρ) c).trans ?_
  show Region1Value.lin (W5 m ρ c (Proc.devRef .tc main_v56)) (W5 m ρ c (Proc.devRef .tc main_arg4)) (W5 m ρ c (Proc.devRef .tc main_arg5)) = _
  rw [HostChain.agg2_eq, first_layer, ← Cert.ReferenceIdeal.Hop2.v85_eq, HostChain.w2_eq, HostChain.b2_eq]
  exact Cert.Bridge.layer2_eq _ _ _ _ _ _

end Cert.KernelIdeal.KernelValue

end
-- ==== Proof.lean ====
/-
  Two-layer simplified graph convolution (one propagation hop per layer): the Pallas kernel against its jnp reference, on
  extended reals.

  Both programs compute, twice over,   features ↦ (D^{-1/2} (A + I) D^{-1/2} · features) · W + b,
  the propagation as a gather of rows at the edge sources, a scaling by the edge's weight and a scatter-add at the edge
  targets. The kernel's program does the propagation with the same host operations as the reference and hands the
  aggregate to a pallas_call that computes  rows · W + b  block by block (5000 rows a grid point; bf16 operands, which at
  the ideal instance are the same extended reals; one product into a zero accumulator; the bias row added); the reference
  contracts the whole aggregate with W and adds the bias spread over the rows.

  * Frames: the kernel's two programs' frames are the generated ones; the reference's is its run with the result dropped.
  * preserves: the ideal pass rewrote nothing, so there is nothing to state.
  * algebraic: the kernel's result buffer is read off the run's last segment boundary, walked back through the second
    call (a linear layer of its operands, whatever they are), the host operations between the calls (the reference's
    second-hop propagation, as ONE function applied to the first call's output), the first call (a linear layer again)
    and the host operations before it (the reference's own first stages). The kernel's layer and the reference's are the
    same sum of the same 128 products plus the same bias entry at every index; only commutativity and associativity of
    the sum are used, so the finiteness of the inputs is never opened.
-/
import proofs.«172488_j49134425867022_1_alg».proof.Defs
import proofs.«172488_j49134425867022_1_alg».proof.Proof.Gen.Kernel
import proofs.«172488_j49134425867022_1_alg».proof.Proof.Gen.Kernel.Frame
import proofs.«172488_j49134425867022_1_alg».proof.Proof.Gen.KernelIdeal
import proofs.«172488_j49134425867022_1_alg».proof.Proof.Gen.KernelIdeal.Frame
import proofs.«172488_j49134425867022_1_alg».proof.Proof.Gen.ReferenceIdeal
import proofs.«172488_j49134425867022_1_alg».proof.Proof.Gen.Pre_finite_inputs
import proofs.«172488_j49134425867022_1_alg».proof.Proof.RefRunP
import proofs.«172488_j49134425867022_1_alg».proof.Proof.RefReadP
import proofs.«172488_j49134425867022_1_alg».proof.Proof.ValueRun
import proofs.«172488_j49134425867022_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ
/-- The idealized kernel program runs and keeps its arguments: the generated frame. -/
theorem frame_ki : Cert.frame_KernelIdeal := fun m ρ _ => Cert.KernelIdeal.Gen.frame m ρ
/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the reference's result stage of the kernel's
    launch contents in their result buffers. -/
theorem algebraic : Cert.algebraic_KernelIdeal_ReferenceIdeal := by
  intro m ρ m' ρ' _ hagree
  refine ⟨fun c => Cert.ReferenceIdeal.ReadP.val_main_v89 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5⟩ := hagree c
    rw [Cert.ReferenceIdeal.ReadP.val_main_v89_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
